-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024 : Shape := ⟨1, ![1024]⟩
abbrev S65536 : Shape := ⟨1, ![65536]⟩
abbrev S1000000x128 : Shape := ⟨2, ![1000000, 128]⟩
abbrev S1000000 : Shape := ⟨1, ![1000000]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1000000x128 : S_.BroadcastsInDim S1000000x128 (![] : Fin 0 → Fin S1000000x128.rank)
  reducesTo_S1000000x128_S_d0_1 : S1000000x128.ReducesTo [0, 1] S_
  bcast_S_S1000000 : S_.BroadcastsInDim S1000000 (![] : Fin 0 → Fin S1000000.rank)
  reducesTo_S1000000_S_d0 : S1000000.ReducesTo [0] S_
  bcast_S_S65536 : S_.BroadcastsInDim S65536 (![] : Fin 0 → Fin S65536.rank)
  reducesTo_S65536_S_d0 : S65536.ReducesTo [0] S_

variable [Facts]

def fn_part1 {F : FTy → Type} [FloatOps F] (main_arg2 : IVec S65536 32) (main_v13 : IVec S_ 1) (main_v15 : IVec S65536 1) (main_c_5 : IVec S_ 32) : IVec S_ 1 :=
  let main_v16 : IVec S65536 32 := broadcastInDim S65536 ![] bcast_S_S65536 main_c_5
  let main_v17 : IVec S65536 1 := cmpi .slt main_arg2 main_v16
  let main_v18 : IVec S65536 1 := andi main_v15 main_v17
  let main_c_6 : IVec S_ 1 := constantI S_ 1 1#1
  let main_v19 : IVec S_ 1 := (fun x v => Host.reduce IntOp.andi x v reducesTo_S65536_S_d0 h_S_) main_v18 main_c_6
  let main_v20 : IVec S_ 1 := andi main_v13 main_v19
  main_v20

def fn {F : FTy → Type} [FloatOps F] (main_arg0 : FVec F S1024x128 .f32) (main_arg1 : IVec S1024 32) (main_arg2 : IVec S65536 32) (main_arg3 : FVec F S1000000x128 .f32) (main_arg4 : FVec F S1000000 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1000000x128 .f32 := Host.absf main_arg3
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S1000000 .f32 := Host.absf main_arg4
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_c_4 : IVec S_ 32 := constantI S_ 32 4293967296#32
  let main_v14 : IVec S65536 32 := broadcastInDim S65536 ![] bcast_S_S65536 main_c_4
  let main_v15 : IVec S65536 1 := cmpi .sge main_arg2 main_v14
  let main_c_5 : IVec S_ 32 := constantI S_ 32 1000000#32
  fn_part1 (F := F) main_arg2 main_v13 main_v15 main_c_5
-- ==== Kernel.lean ====
abbrev S1024x128 : Shape := ⟨2, ![1024, 128]⟩
abbrev S1024 : Shape := ⟨1, ![1024]⟩
abbrev S65536 : Shape := ⟨1, ![65536]⟩
abbrev S1000000x128 : Shape := ⟨2, ![1000000, 128]⟩
abbrev S1000000 : Shape := ⟨1, ![1000000]⟩
abbrev S_ : Shape := ⟨0, ![]⟩
abbrev S65536x1 : Shape := ⟨2, ![65536, 1]⟩
abbrev S1 : Shape := ⟨1, ![1]⟩
abbrev S1x1 : Shape := ⟨2, ![1, 1]⟩
abbrev S65536x128 : Shape := ⟨2, ![65536, 128]⟩
abbrev S1x65536 : Shape := ⟨2, ![1, 65536]⟩
abbrev S1024x65536 : Shape := ⟨2, ![1024, 65536]⟩
abbrev S2048x128 : Shape := ⟨2, ![2048, 128]⟩
abbrev S1x2048 : Shape := ⟨2, ![1, 2048]⟩
abbrev S1024x2048 : Shape := ⟨2, ![1024, 2048]⟩

abbrev nBuf : Space → Nat
  | .hbm => 53
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S65536, .i32⟩
  | .hbm, ⟨3, _⟩ => ⟨S1000000x128, .f32⟩
  | .hbm, ⟨4, _⟩ => ⟨S1000000, .f32⟩
  | .hbm, ⟨5, _⟩ => ⟨S_, .i32⟩
  | .hbm, ⟨6, _⟩ => ⟨S65536, .i32⟩
  | .hbm, ⟨7, _⟩ => ⟨S65536, .i1⟩
  | .hbm, ⟨8, _⟩ => ⟨S_, .i32⟩
  | .hbm, ⟨9, _⟩ => ⟨S65536, .i32⟩
  | .hbm, ⟨10, _⟩ => ⟨S65536, .i32⟩
  | .hbm, ⟨11, _⟩ => ⟨S65536, .i32⟩
  | .hbm, ⟨12, _⟩ => ⟨S65536x1, .i32⟩
  | .hbm, ⟨13, _⟩ => ⟨S1, .i32⟩
  | .hbm, ⟨14, _⟩ => ⟨S_, .i32⟩
  | .hbm, ⟨15, _⟩ => ⟨S65536x1, .i32⟩
  | .hbm, ⟨16, _⟩ => ⟨S65536x1, .i1⟩
  | .hbm, ⟨17, _⟩ => ⟨S1x1, .i32⟩
  | .hbm, ⟨18, _⟩ => ⟨S65536x1, .i32⟩
  | .hbm, ⟨19, _⟩ => ⟨S65536x1, .i1⟩
  | .hbm, ⟨20, _⟩ => ⟨S65536x1, .i1⟩
  | .hbm, ⟨21, _⟩ => ⟨S_, .i1⟩
  | .hbm, ⟨22, _⟩ => ⟨S65536, .i1⟩
  | .hbm, ⟨23, _⟩ => ⟨S65536x128, .f32⟩
  | .hbm, ⟨24, _⟩ => ⟨S65536x128, .i1⟩
  | .hbm, ⟨25, _⟩ => ⟨S_, .f32⟩
  | .hbm, ⟨26, _⟩ => ⟨S65536x128, .f32⟩
  | .hbm, ⟨27, _⟩ => ⟨S65536x128, .f32⟩
  | .hbm, ⟨28, _⟩ => ⟨S_, .i32⟩
  | .hbm, ⟨29, _⟩ => ⟨S65536, .i32⟩
  | .hbm, ⟨30, _⟩ => ⟨S65536, .i1⟩
  | .hbm, ⟨31, _⟩ => ⟨S_, .i32⟩
  | .hbm, ⟨32, _⟩ => ⟨S65536, .i32⟩
  | .hbm, ⟨33, _⟩ => ⟨S65536, .i32⟩
  | .hbm, ⟨34, _⟩ => ⟨S65536, .i32⟩
  | .hbm, ⟨35, _⟩ => ⟨S65536x1, .i32⟩
  | .hbm, ⟨36, _⟩ => ⟨S1, .i32⟩
  | .hbm, ⟨37, _⟩ => ⟨S_, .i32⟩
  | .hbm, ⟨38, _⟩ => ⟨S65536x1, .i32⟩
  | .hbm, ⟨39, _⟩ => ⟨S65536x1, .i1⟩
  | .hbm, ⟨40, _⟩ => ⟨S1x1, .i32⟩
  | .hbm, ⟨41, _⟩ => ⟨S65536x1, .i32⟩
  | .hbm, ⟨42, _⟩ => ⟨S65536x1, .i1⟩
  | .hbm, ⟨43, _⟩ => ⟨S65536x1, .i1⟩
  | .hbm, ⟨44, _⟩ => ⟨S_, .i1⟩
  | .hbm, ⟨45, _⟩ => ⟨S65536, .i1⟩
  | .hbm, ⟨46, _⟩ => ⟨S65536, .f32⟩
  | .hbm, ⟨47, _⟩ => ⟨S_, .f32⟩
  | .hbm, ⟨48, _⟩ => ⟨S65536, .f32⟩
  | .hbm, ⟨49, _⟩ => ⟨S65536, .f32⟩
  | .hbm, ⟨50, _⟩ => ⟨S1024x128, .bf16⟩
  | .hbm, ⟨51, _⟩ => ⟨S1x65536, .f32⟩
  | .hbm, ⟨52, _⟩ => ⟨S1024x65536, .f32⟩
  | .local _ .vmem, ⟨0, _⟩ => ⟨S1024x128, .bf16⟩
  | .local _ .vmem, ⟨1, _⟩ => ⟨S2048x128, .f32⟩
  | .local _ .vmem, ⟨2, _⟩ => ⟨S2048x128, .f32⟩
  | .local _ .vmem, ⟨3, _⟩ => ⟨S1x2048, .f32⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_c_0 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_c_1 : Ref sig .tc := ⟨.hbm, 13, rfl⟩
abbrev main_call0_call0_c_2 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_call0_c_3 : Ref sig .tc := ⟨.hbm, 21, rfl⟩
abbrev main_call0_call0_v12 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst : Ref sig .tc := ⟨.hbm, 25, rfl⟩
abbrev main_call0_call0_v15 : Ref sig .tc := ⟨.hbm, 26, rfl⟩
abbrev main_call0_v0 : Ref sig .tc := ⟨.hbm, 27, rfl⟩
abbrev main_call0_call1_c : Ref sig .tc := ⟨.hbm, 28, rfl⟩
abbrev main_call0_call1_v0 : Ref sig .tc := ⟨.hbm, 29, rfl⟩
abbrev main_call0_call1_v1 : Ref sig .tc := ⟨.hbm, 30, rfl⟩
abbrev main_call0_call1_c_0 : Ref sig .tc := ⟨.hbm, 31, rfl⟩
abbrev main_call0_call1_v2 : Ref sig .tc := ⟨.hbm, 32, rfl⟩
abbrev main_call0_call1_v3 : Ref sig .tc := ⟨.hbm, 33, rfl⟩
abbrev main_call0_call1_v4 : Ref sig .tc := ⟨.hbm, 34, rfl⟩
abbrev main_call0_call1_v5 : Ref sig .tc := ⟨.hbm, 35, rfl⟩
abbrev main_call0_call1_c_1 : Ref sig .tc := ⟨.hbm, 36, rfl⟩
abbrev main_call0_call1_c_2 : Ref sig .tc := ⟨.hbm, 37, rfl⟩
abbrev main_call0_call1_v6 : Ref sig .tc := ⟨.hbm, 38, rfl⟩
abbrev main_call0_call1_v7 : Ref sig .tc := ⟨.hbm, 39, rfl⟩
abbrev main_call0_call1_v8 : Ref sig .tc := ⟨.hbm, 40, rfl⟩
abbrev main_call0_call1_v9 : Ref sig .tc := ⟨.hbm, 41, rfl⟩
abbrev main_call0_call1_v10 : Ref sig .tc := ⟨.hbm, 42, rfl⟩
abbrev main_call0_call1_v11 : Ref sig .tc := ⟨.hbm, 43, rfl⟩
abbrev main_call0_call1_c_3 : Ref sig .tc := ⟨.hbm, 44, rfl⟩
abbrev main_call0_call1_v12 : Ref sig .tc := ⟨.hbm, 45, rfl⟩
abbrev main_call0_call1_v13 : Ref sig .tc := ⟨.hbm, 46, rfl⟩
abbrev main_call0_call1_cst : Ref sig .tc := ⟨.hbm, 47, rfl⟩
abbrev main_call0_call1_v14 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_v0 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S65536_d1 : S65536x1.ReducesTo [1] S65536
  h_S_ : 0 < S_.numel
  bcast_S65536_S65536x128_0 : S65536.BroadcastsInDim S65536x128 (![0] : Fin 1 → Fin S65536x128.rank)
  bcast_S_S65536x128 : S_.BroadcastsInDim S65536x128 (![] : Fin 0 → Fin S65536x128.rank)
  bitsLt_bf16_f32 : FTy.bits .bf16 < FTy.bits .f32
  shapeCasts_S65536_S1x65536 : S65536.ShapeCasts S1x65536
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  gather_S1000000x128_S65536x1_S65536x128_1_0_n_n_0_1_1128_wf : GatherDims.WF S1000000x128 S65536x1 S65536x128 [1] [0] [] [0] [] 1 ![1, 128]
  gather_S1000000_S65536x1_S65536_n_0_n_n_0_1_1_wf : GatherDims.WF S1000000 S65536x1 S65536 [] [0] [] [0] [] 1 ![1]
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .bf16 = 32 ∨ (Rect.block (s := S1024x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x65536.size a
  hwx0_2 : ∀ i : grid0.Coords, EltTy.bits .f32 = 32 ∨ (Rect.block (s := S1x65536) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x65536.size a
  hwx0_3 : ∀ i : grid0.Coords, EltTy.bits .f32 = 32 ∨ (Rect.block (s := S1024x65536) S1024x2048.size (cc0_transform_3 i) (hinb0_3 i)).WholeWords (EltTy.packing .f32)

variable [Facts₀]

def gather_S1000000x128_S65536x1_S65536x128_1_0_n_n_0_1_1128 : GatherDims S1000000x128 S65536x1 S65536x128 where
  offsetDims := [1]
  collapsedSliceDims := [0]
  operandBatchingDims := []
  startIndicesBatchingDims := []
  startIndexMap := [0]
  indexVectorDim := 1
  sliceSizes := ![1, 128]
  wf := gather_S1000000x128_S65536x1_S65536x128_1_0_n_n_0_1_1128_wf
def gather_S1000000_S65536x1_S65536_n_0_n_n_0_1_1 : GatherDims S1000000 S65536x1 S65536 where
  offsetDims := []
  collapsedSliceDims := [0]
  operandBatchingDims := []
  startIndicesBatchingDims := []
  startIndexMap := [0]
  indexVectorDim := 1
  sliceSizes := ![1]
  wf := gather_S1000000_S65536x1_S65536_n_0_n_n_0_1_1_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_call0_v2) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024 : Shape := ⟨1, ![1024]⟩
abbrev S65536 : Shape := ⟨1, ![65536]⟩
abbrev S1000000x128 : Shape := ⟨2, ![1000000, 128]⟩
abbrev S1000000 : Shape := ⟨1, ![1000000]⟩
abbrev S_ : Shape := ⟨0, ![]⟩
abbrev S65536x1 : Shape := ⟨2, ![65536, 1]⟩
abbrev S65536x128 : Shape := ⟨2, ![65536, 128]⟩
abbrev S1024x65536 : Shape := ⟨2, ![1024, 65536]⟩
abbrev S1x65536 : Shape := ⟨2, ![1, 65536]⟩

abbrev nBuf : Space → Nat
  | .hbm => 27
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024, .i32⟩
  | .hbm, ⟨2, _⟩ => ⟨S65536, .i32⟩
  | .hbm, ⟨3, _⟩ => ⟨S1000000x128, .f32⟩
  | .hbm, ⟨4, _⟩ => ⟨S1000000, .f32⟩
  | .hbm, ⟨5, _⟩ => ⟨S_, .i32⟩
  | .hbm, ⟨6, _⟩ => ⟨S65536, .i32⟩
  | .hbm, ⟨7, _⟩ => ⟨S65536, .i1⟩
  | .hbm, ⟨8, _⟩ => ⟨S_, .i32⟩
  | .hbm, ⟨9, _⟩ => ⟨S65536, .i32⟩
  | .hbm, ⟨10, _⟩ => ⟨S65536, .i32⟩
  | .hbm, ⟨11, _⟩ => ⟨S65536, .i32⟩
  | .hbm, ⟨12, _⟩ => ⟨S65536x1, .i32⟩
  | .hbm, ⟨13, _⟩ => ⟨S65536x128, .f32⟩
  | .hbm, ⟨14, _⟩ => ⟨S_, .i32⟩
  | .hbm, ⟨15, _⟩ => ⟨S65536, .i32⟩
  | .hbm, ⟨16, _⟩ => ⟨S65536, .i1⟩
  | .hbm, ⟨17, _⟩ => ⟨S_, .i32⟩
  | .hbm, ⟨18, _⟩ => ⟨S65536, .i32⟩
  | .hbm, ⟨19, _⟩ => ⟨S65536, .i32⟩
  | .hbm, ⟨20, _⟩ => ⟨S65536, .i32⟩
  | .hbm, ⟨21, _⟩ => ⟨S65536x1, .i32⟩
  | .hbm, ⟨22, _⟩ => ⟨S65536, .f32⟩
  | .hbm, ⟨23, _⟩ => ⟨S1024x65536, .f32⟩
  | .hbm, ⟨24, _⟩ => ⟨S1x65536, .f32⟩
  | .hbm, ⟨25, _⟩ => ⟨S1024x65536, .f32⟩
  | .hbm, ⟨26, _⟩ => ⟨S1024x65536, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S65536_S1x65536_1 : S65536.BroadcastsInDim S1x65536 (![1] : Fin 1 → Fin S1x65536.rank)
  bcast_S1x65536_S1024x65536_0_1 : S1x65536.BroadcastsInDim S1024x65536 (![0, 1] : Fin 2 → Fin S1024x65536.rank)
  gather_S1000000x128_S65536x1_S65536x128_1_0_n_n_0_1_1128_wf : GatherDims.WF S1000000x128 S65536x1 S65536x128 [1] [0] [] [0] [] 1 ![1, 128]
  gather_S1000000_S65536x1_S65536_n_0_n_n_0_1_1_wf : GatherDims.WF S1000000 S65536x1 S65536 [] [0] [] [0] [] 1 ![1]
  dot_S1024x128_S65536x128_S1024x65536_1_1_0_0_n_n_wf : DotDims.WF S1024x128 S65536x128 S1024x65536 [1] [1] [0] [0] [] []

variable [Facts₀]

def gather_S1000000x128_S65536x1_S65536x128_1_0_n_n_0_1_1128 : GatherDims S1000000x128 S65536x1 S65536x128 where
  offsetDims := [1]
  collapsedSliceDims := [0]
  operandBatchingDims := []
  startIndicesBatchingDims := []
  startIndexMap := [0]
  indexVectorDim := 1
  sliceSizes := ![1, 128]
  wf := gather_S1000000x128_S65536x1_S65536x128_1_0_n_n_0_1_1128_wf
def gather_S1000000_S65536x1_S65536_n_0_n_n_0_1_1 : GatherDims S1000000 S65536x1 S65536 where
  offsetDims := []
  collapsedSliceDims := [0]
  operandBatchingDims := []
  startIndicesBatchingDims := []
  startIndexMap := [0]
  indexVectorDim := 1
  sliceSizes := ![1]
  wf := gather_S1000000_S65536x1_S65536_n_0_n_n_0_1_1_wf
def dot_S1024x128_S65536x128_S1024x65536_1_1_0_0_n_n : DotDims S1024x128 S65536x128 S1024x65536 where
  lhsContracting := [1]
  rhsContracting := [1]
  lhsNonContracting := [0]
  rhsNonContracting := [0]
  lhsBatch := []
  rhsBatch := []
  wf := dot_S1024x128_S65536x128_S1024x65536_1_1_0_0_n_n_wf

class Facts : Prop extends Facts₀ where

variable [Facts]
-- ==== Proof.IdRange.lean ====
import proofs.«418527_j30588757082169_3_alg».proof.Pre_finite_inputs
import Idealize.ShloMosaic.Lib.Affine
import Idealize.ShloMosaic.Lib.ReduceAll
import Idealize.ShloMosaic.Lib.ValueIdx

/-!
# What the precondition says of the class ids

The precondition is a conjunction: the three float inputs are finite, and every class id lies in
[-1000000, 1000000). Only the last conjunct is used by this certificate. It is a conjunction over all
65536 ids (a reduce by "and" into a scalar) of "id ≥ -1000000 and id < 1000000", so when the
precondition holds each id passes both comparisons.
-/

noncomputable section

namespace Cert.Pre_finite_inputs

open Idealize.ShloMosaic

variable [Facts]
open Facts

instance : Subsingleton S_.Idx := ⟨fun a b => funext fun d => d.elim0⟩

/-- Under the precondition every class id passes "id ≥ -1000000" (the word 4293967296 is -1000000 read
    signed) and "id < 1000000". -/
theorem id_in_range {F : FTy → Type} [FloatOps F] (a0 : FVec F S1024x128 .f32) (a1 : IVec S1024 32) (a2 : IVec S65536 32)
    (a3 : FVec F S1000000x128 .f32) (a4 : FVec F S1000000 .f32) (h : fn (F := F) a0 a1 a2 a3 a4 = fun _ => 1#1) (k : S65536.Idx) :
    IntOp.cmpi .sge (a2 k) 4293967296#32 = 1#1 ∧ IntOp.cmpi .slt (a2 k) 1000000#32 = 1#1 := by
  have h0 := congrFun h ValueIdx.ix0
  dsimp only [fn, fn_part1] at h0
  have h1 := (IntOp.andi_eq_one.1 h0).2
  have h2 := Host.reduce_andi_all _ _ _ _ _ h1 k
  exact IntOp.andi_eq_one.1 h2

end Cert.Pre_finite_inputs

end
-- ==== Proof.Payload.lean ====
import proofs.«418527_j30588757082169_3_alg».proof.Proof.Gen.KernelIdeal.Skeleton
import Idealize.ShloMosaic.Lib.Pipeline.Value
import Idealize.ShloMosaic.Lib.ValueIdx
import Idealize.ShloMosaic.PureOps.Ideal.Laws

/-!
# One block of logits, entry by entry

At a grid point the body holds the whole input matrix x (1024 × 128), a block of 2048 gathered weight rows
w (2048 × 128) and the matching 2048 biases β (a 1 × 2048 row). It stores x · wᵀ + β: entry (p, q) of the stored
block is the dot product of row p of x with row q of w, plus β at q. The narrowing of w to bf16 before the
product changes nothing over the extended reals, and the product starts from a zero accumulator.
-/

noncomputable section

namespace Cert.KernelIdeal.Payload

open Cert.KernelIdeal Cert.KernelIdeal.Gen Idealize.ShloMosaic Idealize.ShloMosaic.ValueIdx

/-! ## Which operand entries the product at (p, q) reads -/

theorem lhs_0 (i : S1024x2048.Idx) (r : dot_S1024x128_S2048x128_S1024x2048_1_1_0_0_n_n.contr.Idx) :
    (dot_S1024x128_S2048x128_S1024x2048_1_1_0_0_n_n.lhsIdx i r 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem lhs_1 (i : S1024x2048.Idx) (r : dot_S1024x128_S2048x128_S1024x2048_1_1_0_0_n_n.contr.Idx) :
    (dot_S1024x128_S2048x128_S1024x2048_1_1_0_0_n_n.lhsIdx i r 1).val = (r ⟨0, by decide⟩).val :=
  dot_S1024x128_S2048x128_S1024x2048_1_1_0_0_n_n.lhsIdx_val_of_single rfl i r
theorem rhs_0 (i : S1024x2048.Idx) (r : dot_S1024x128_S2048x128_S1024x2048_1_1_0_0_n_n.contr.Idx) :
    (dot_S1024x128_S2048x128_S1024x2048_1_1_0_0_n_n.rhsIdx i r 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem rhs_1 (i : S1024x2048.Idx) (r : dot_S1024x128_S2048x128_S1024x2048_1_1_0_0_n_n.contr.Idx) :
    (dot_S1024x128_S2048x128_S1024x2048_1_1_0_0_n_n.rhsIdx i r 1).val = (r ⟨0, by decide⟩).val :=
  dot_S1024x128_S2048x128_S1024x2048_1_1_0_0_n_n.rhsIdx_val_of_single rfl i r

/-- The matrix product contracting the second axis of both operands, from a zero accumulator: entry (p, q) is
    the sum over k of x[p, k] · w[q, k]. -/
theorem product_at (x : FVec Ideal S1024x128 .bf16) (w : FVec Ideal S2048x128 .bf16) (p : Fin 1024) (q : Fin 2048) :
    matmul dot_S1024x128_S2048x128_S1024x2048_1_1_0_0_n_n none x w (constant S1024x2048 .f32 0x00000000#32) (ix2 p q)
      = ∑ k : Fin 128, x (ix2 p k) * w (ix2 q k) := by
  show FloatOps.matmul dot_S1024x128_S2048x128_S1024x2048_1_1_0_0_n_n none x w (constant S1024x2048 .f32 0x00000000#32) (ix2 p q) = _
  rw [Ideal.matmul_constant_zero_apply, ← Equiv.sum_comp (ValueIdx.contrEquiv1 dot_S1024x128_S2048x128_S1024x2048_1_1_0_0_n_n 128 rfl rfl).symm]
  refine Finset.sum_congr rfl fun k _ => ?_
  have hk := ValueIdx.contrEquiv1_symm_val dot_S1024x128_S2048x128_S1024x2048_1_1_0_0_n_n 128 rfl rfl k
  have el : dot_S1024x128_S2048x128_S1024x2048_1_1_0_0_n_n.lhsIdx (ix2 p q) ((ValueIdx.contrEquiv1 dot_S1024x128_S2048x128_S1024x2048_1_1_0_0_n_n 128 rfl rfl).symm k) = ix2 p k := funext fun a => Fin.ext (by
    match a with
    | ⟨0, _⟩ => exact lhs_0 _ _
    | ⟨1, _⟩ => exact (lhs_1 _ _).trans hk)
  have er : dot_S1024x128_S2048x128_S1024x2048_1_1_0_0_n_n.rhsIdx (ix2 p q) ((ValueIdx.contrEquiv1 dot_S1024x128_S2048x128_S1024x2048_1_1_0_0_n_n 128 rfl rfl).symm k) = ix2 q k := funext fun a => Fin.ext (by
    match a with
    | ⟨0, _⟩ => exact rhs_0 _ _
    | ⟨1, _⟩ => exact (rhs_1 _ _).trans hk)
  rw [el, er]

/-- A [1 × 2048] row laid under every one of 1024 rows reads, at (p, q), the row at q. -/
theorem row_under_at (β : Vec Ideal S1x2048 .f32) (p : Fin 1024) (q : Fin 2048) :
    broadcastTo S1024x2048 β Facts₀.broadcasts_S1x2048_S1024x2048 (ix2 p q) = β (ix2 (0 : Fin 1) q) :=
  broadcastTo_apply β Facts₀.broadcasts_S1x2048_S1024x2048 (ix2 p q) (ix2 (0 : Fin 1) q) (fun a => match a with
    | ⟨0, _⟩ => by show (0 : Nat) = if (1 : Nat) = 1 then 0 else p.val; rw [if_pos rfl]
    | ⟨1, _⟩ => by show q.val = if (2048 : Nat) = 1 then 0 else q.val; rw [if_neg (by decide)])

/-- THE STORED BLOCK at (p, q): the dot product of input row p with weight row q, plus the bias at q. -/
theorem stored_at (w : Vec Ideal S2048x128 .f32) (x : Vec Ideal S1024x128 .bf16) (β : Vec Ideal S1x2048 .f32) (p : Fin 1024) (q : Fin 2048) :
    k0_pay1 w x β (ix2 p q) = (∑ k : Fin 128, x (ix2 p k) * w (ix2 q k)) + β (ix2 (0 : Fin 1) q) := by
  unfold k0_pay1
  rw [ValueIdx.addf_apply, shapeCast_self, shapeCast_self, shapeCast_self, product_at, row_under_at]
  rfl

end Cert.KernelIdeal.Payload

end
-- ==== Proof.Logits.lean ====
import proofs.«418527_j30588757082169_3_alg».proof.Proof.Gen.KernelIdeal.Value
import proofs.«418527_j30588757082169_3_alg».proof.Proof.Payload
import Idealize.ShloMosaic.Lib.Pipeline.Value
import Idealize.ShloMosaic.Lib.ValueIdx

set_option maxRecDepth 16384

/-!
# The kernel's result array, as one function of the region's three operand arrays

The grid has 32 points. Point t takes the whole input matrix, rows 2048·t … 2048·t + 2047 of the gathered weight
rows and the same stretch of the bias row, and writes columns 2048·t … 2048·t + 2047 of the result. Entry (p, q) of
the block it writes is the dot product of input row p with weight row 2048·t + q plus the bias at 2048·t + q
(Proof/Payload.lean), which is entry (p, 2048·t + q) of ONE function of the whole operand arrays, `logits`. The 32
column blocks tile the result, so after the run the result array is `logits` of the operand arrays.
-/

noncomputable section

namespace Cert.KernelIdeal.Logits

open Cert.KernelIdeal Cert.KernelIdeal.Gen Idealize.ShloMosaic Idealize.ShloMosaic.TcCoe Idealize.SL.Sem Idealize.ShloMosaic.ValueIdx
open Idealize.ShloMosaic.Pipeline (Dat)

/-- Row and column of an index of the result. -/
abbrev row (i : S1024x65536.Idx) : Fin 1024 := ⟨(i 0).val, (i 0).isLt⟩
abbrev col (i : S1024x65536.Idx) : Fin 65536 := ⟨(i 1).val, (i 1).isLt⟩

/-- logits[b, s] = Σ_k x[b, k] · w[s, k] + β[0, s]: every input row against every selected weight row, plus that
    row's bias. -/
def logits (x : Vec Ideal S1024x128 .bf16) (w : Vec Ideal S65536x128 .f32) (β : Vec Ideal S1x65536 .f32) : S1024x65536.Idx → EReal :=
  fun i => (∑ k : Fin 128, x (ix2 (row i) k) * w (ix2 (col i) k)) + β (ix2 (0 : Fin 1) (col i))

/-- ONE ENTRY OF ONE BLOCK. Let the body's three loaded blocks be the whole input matrix, the stretch of 2048 weight
    rows starting at row 2048·b and the same stretch of the bias row. Then entry j of the stored block is `logits` at
    the index with j's row and column 2048·b + (j's column). -/
theorem block_entry (x : Vec Ideal S1024x128 .bf16) (w : Vec Ideal S65536x128 .f32) (β : Vec Ideal S1x65536 .f32)
    (xb : Vec Ideal S1024x128 .bf16) (wb : Vec Ideal S2048x128 .f32) (βb : Vec Ideal S1x2048 .f32) (b : Nat) (hb : b ≤ 31)
    (hx : ∀ (p : Fin 1024) (k : Fin 128), xb (ix2 p k) = x (ix2 p k))
    (hw : ∀ (q : Fin 2048) (k : Fin 128), wb (ix2 q k) = w (ix2 (⟨b * 2048 + q.val, by have := q.isLt; omega⟩ : Fin 65536) k))
    (hβ : ∀ q : Fin 2048, βb (ix2 (0 : Fin 1) q) = β (ix2 (0 : Fin 1) (⟨b * 2048 + q.val, by have := q.isLt; omega⟩ : Fin 65536)))
    (j : S1024x2048.Idx) (i : S1024x65536.Idx) (hi0 : (i 0).val = (j 0).val) (hi1 : (i 1).val = b * 2048 + (j 1).val) :
    k0_pay1 wb xb βb j = logits x w β i := by
  obtain ⟨p, q, rfl⟩ : ∃ (p : Fin 1024) (q : Fin 2048), j = ix2 p q := ⟨j 0, j 1, eq_ix2 j⟩
  rw [Payload.stored_at]
  unfold logits
  have hr : row i = p := Fin.ext hi0
  have hc : col i = (⟨b * 2048 + q.val, by have := q.isLt; omega⟩ : Fin 65536) := Fin.ext hi1
  rw [hr, hc, hβ q]
  exact congrArg (· + _) (Finset.sum_congr rfl fun k _ => by rw [hx p k, hw q k])

variable (m : (ℓ : Loc nD τ sig) → Buf (Elt Ideal) ℓ) (ρ : Dev nD → PrngReg)

/-- The region's three operand arrays as it finds them, at their literal types. -/
abbrev xarr (c : Dev nD) : Vec Ideal S1024x128 .bf16 := V m c main_call0_v2
abbrev warr (c : Dev nD) : Vec Ideal S65536x128 .f32 := V m c main_call0_v0
abbrev barr (c : Dev nD) : Vec Ideal S1x65536 .f32 := V m c main_call0_v3

theorem origin : (![0, 0] : Fin 2 → Nat) = fun _ => 0 := funext fun a => by fin_cases a <;> rfl

/-- The printed index maps over the 32 points: the input matrix is always block (0, 0); the weight rows' block row,
    the bias row's block column and the result's block column are all the point's number; the rest are 0. -/
theorem block_indices : ∀ t : Fin cfg0.N, win0_0.index t (0 : Fin 2) = 0 ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) = 0 ∧ win0_3.index t (1 : Fin 2) ≤ 31 :=
  (by decide +kernel : ∀ t : Fin grid0.N, _)

/-- Every one of the 32 column blocks of the result is some point's. -/
theorem every_block : ∀ q : Fin 32, ∃ t : Fin cfg0.N, win0_3.index t = ![0, q.val] :=
  (by decide +kernel : ∀ q : Fin 32, ∃ t : Fin grid0.N, win0_3.index t = ![0, q.val])

/-- WHAT POINT t WRITES BACK is block t of `logits` of the operand arrays. -/
theorem written_eq (c : Dev nD) (t : Fin cfg0.N) :
    (dats m 0 c).flushed 3 t = ((cfg0.win 3).blk t).view.read (Elt Ideal) (logits (xarr m c) (warr m c) (barr m c)) := by
  rw [Value.flushed3]
  unfold out0_3
  rw [View.canon_unit_zero origin]
  simp only [View.ld_unit_zero (S := S1024x128) origin, View.ld_unit_zero (S := S2048x128) origin, View.ld_unit_zero (S := S1x2048) origin]
  obtain ⟨e0, e1, e2, e3, e4, e5, e6, e7⟩ := block_indices t
  funext j
  refine block_entry (xarr m c) (warr m c) (barr m c) (iblk m c 0 t) (iblk m c 1 t) (iblk m c 2 t) (win0_3.index t (1 : Fin 2)) e7 ?_ ?_ ?_ j
    (((cfg0.win 3).blk t).view.emb j) ?_ ?_
  · intro p k
    show V m c main_call0_v2 (((cfg0.win 0).blk t).view.emb (ix2 p k)) = V m c main_call0_v2 (ix2 p k)
    refine congrArg (V m c main_call0_v2) (funext fun a => Fin.ext ?_)
    match a with
    | ⟨0, _⟩ => show win0_0.index t (0 : Fin 2) * 1024 + 1 * p.val = p.val; omega
    | ⟨1, _⟩ => show win0_0.index t (1 : Fin 2) * 128 + 1 * k.val = k.val; omega
  · intro q k
    show V m c main_call0_v0 (((cfg0.win 1).blk t).view.emb (ix2 q k)) = V m c main_call0_v0 (ix2 (⟨win0_3.index t (1 : Fin 2) * 2048 + q.val, _⟩ : Fin 65536) k)
    refine congrArg (V m c main_call0_v0) (funext fun a => Fin.ext ?_)
    match a with
    | ⟨0, _⟩ => show win0_1.index t (0 : Fin 2) * 2048 + 1 * q.val = win0_3.index t (1 : Fin 2) * 2048 + q.val; omega
    | ⟨1, _⟩ => show win0_1.index t (1 : Fin 2) * 128 + 1 * k.val = k.val; omega
  · intro q
    show V m c main_call0_v3 (((cfg0.win 2).blk t).view.emb (ix2 (0 : Fin 1) q)) = V m c main_call0_v3 (ix2 (0 : Fin 1) (⟨win0_3.index t (1 : Fin 2) * 2048 + q.val, _⟩ : Fin 65536))
    refine congrArg (V m c main_call0_v3) (funext fun a => Fin.ext ?_)
    match a with
    | ⟨0, _⟩ => show win0_2.index t (0 : Fin 2) * 1 + 1 * 0 = 0; omega
    | ⟨1, _⟩ => show win0_2.index t (1 : Fin 2) * 2048 + 1 * q.val = win0_3.index t (1 : Fin 2) * 2048 + q.val; omega
  · show win0_3.index t (0 : Fin 2) * 1024 + 1 * (j 0).val = (j 0).val; omega
  · show win0_3.index t (1 : Fin 2) * 2048 + 1 * (j 1).val = win0_3.index t (1 : Fin 2) * 2048 + (j 1).val; omega

/-- An index of the result is in point t's block iff each coordinate is in the block's range on its axis. -/
theorem mem_block (t : Fin cfg0.N) (i : S1024x65536.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v0).slice (win0_3.rect t)).set ↔ _
  rw [View.set_slice_whole, Rect.mem_set_unit]
  exact Iff.rfl

/-- The 32 column blocks tile the result: every index is in the block of the point whose number is its column / 2048. -/
theorem tiled (i : S1024x65536.Idx) : ∃ t : Fin cfg0.N, (cfg0.win 3).flush t = true ∧ i ∈ ((cfg0.win 3).blk t).view.set := by
  have hi0 : (i 0).val < 1024 := (i 0).isLt
  have hi1 : (i 1).val < 65536 := (i 1).isLt
  obtain ⟨t, ht⟩ := every_block ⟨(i 1).val / 2048, by omega⟩
  have q0 : win0_3.index t (0 : Fin 2) = 0 := congrFun ht 0
  have q1 : win0_3.index t (1 : Fin 2) = (i 1).val / 2048 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2048 ≤ (i 1).val ∧ (i 1).val < win0_3.index t (1 : Fin 2) * 2048 + 2048; omega

/-- THE RESULT ARRAY after the run is `logits` of the operand arrays. -/
theorem result_eq (c : Dev nD) : (dats m 0 c).arrAt 3 cfg0.N = logits (xarr m c) (warr m c) (barr m c) :=
  (dats m 0 c).arrAt_eq_of_cover 3 (logits (xarr m c) (warr m c) (barr m c)) (fun t _ => written_eq m c t) tiled

/-- The kernel's run: it ends with the result array at `logits` of the operand arrays and the arguments unchanged. -/
theorem run : θ_run defs (onTc (τ := τ) (main (F := Ideal))) ⟨m, fun _ => 0, ρ⟩ fun r => ∀ c : Dev nD,
      r.2.mem ((c : Thread nD τ).loc main_v0) = logits (xarr m c) (warr m c) (barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_eq m c), (h c).2⟩) (Value.run_blocks m ρ)

end Cert.KernelIdeal.Logits

end
-- ==== Proof.ClassIds.lean ====
import Idealize.ShloMosaic.Lib.Affine
import Idealize.ShloMosaic.Lib.ReduceAll
import Idealize.ShloMosaic.PureOps.Reduce

/-!
# Class ids as 32-bit words: the wrapped id is a row of the table

A class id is a signed 32-bit word. An id below zero counts rows from the end of a table of
1000000 rows, so it is replaced by the id plus 1000000; any other id is kept. When the id lies in
[-1000000, 1000000) the result lies in [0, 999999]: it names a row of the table, and the test
"0 ≤ id' and id' ≤ 999999" made on it afterwards succeeds.

The second half of the file is about that test taken over a whole array: a conjunction (a reduce
by "and", started at 1) of words that are all 1 is 1.
-/

namespace Cert.ClassIds

open Idealize.ShloMosaic

/-- A signed word read through its unsigned value: below 2³¹ it is that value, from 2³¹ on it is
    that value less 2³². -/
theorem toInt_by_toNat (x : BitVec 32) :
    x.toInt = if x.toNat < 2147483648 then (x.toNat : Int) else (x.toNat : Int) - 4294967296 := by
  rw [BitVec.toInt_eq_toNat_cond]
  split <;> split <;> omega

/-- Adding 1000000 to a word, read unsigned: the sum, less 2³² if it reaches it. -/
theorem toNat_add_million (x : BitVec 32) :
    (x + 1000000#32).toNat = if x.toNat + 1000000 < 4294967296 then x.toNat + 1000000 else x.toNat + 1000000 - 4294967296 := by
  have hx : x.toNat < 4294967296 := x.isLt
  rw [BitVec.toNat_add]
  show (x.toNat + 1000000) % 4294967296 = _
  split <;> omega

/-- The id as the table sees it: an id below zero counts from the end. -/
def wrap (x : BitVec 32) : BitVec 32 :=
  Scalar.select (IntOp.cmpi .slt x 0#32) (IntOp.addi x 1000000#32) x

/-- An id in [-1000000, 1000000), wrapped, lies in [0, 999999]. -/
theorem wrap_toInt_mem (x : BitVec 32) (hlo : -1000000 ≤ x.toInt) (hhi : x.toInt < 1000000) :
    0 ≤ (wrap x).toInt ∧ (wrap x).toInt ≤ 999999 := by
  unfold wrap Scalar.select
  by_cases hneg : x.toInt < 0
  · have hc : IntOp.cmpi .slt x 0#32 = 1#1 := IntOp.cmpi_slt.2 (by simpa using hneg)
    rw [show (if IntOp.cmpi .slt x 0#32 = 1 then IntOp.addi x 1000000#32 else x) = x + 1000000#32 from if_pos hc]
    have hx : x.toNat < 4294967296 := x.isLt
    rw [toInt_by_toNat] at hlo hhi hneg
    rw [toInt_by_toNat (x + 1000000#32), toNat_add_million]
    split at hneg <;> split <;> split <;> omega
  · have hc : ¬ IntOp.cmpi .slt x 0#32 = 1#1 := fun h => hneg (by simpa using IntOp.cmpi_slt.1 h)
    rw [show (if IntOp.cmpi .slt x 0#32 = 1 then IntOp.addi x 1000000#32 else x) = x from if_neg hc]
    omega

/-- So both halves of the range test made on the wrapped id succeed. -/
theorem wrap_in_table (x : BitVec 32) (hlo : IntOp.cmpi .sge x 4293967296#32 = 1#1) (hhi : IntOp.cmpi .slt x 1000000#32 = 1#1) :
    IntOp.andi (IntOp.cmpi .sge (wrap x) 0#32) (IntOp.cmpi .sle (wrap x) 999999#32) = 1#1 := by
  have h1 : (4293967296#32 : BitVec 32).toInt = -1000000 := by decide
  have h2 : (1000000#32 : BitVec 32).toInt = 1000000 := by decide
  have h3 : (0#32 : BitVec 32).toInt = 0 := by decide
  have h4 : (999999#32 : BitVec 32).toInt = 999999 := by decide
  have hlo' := IntOp.cmpi_sge.1 hlo
  have hhi' := IntOp.cmpi_slt.1 hhi
  rw [h1] at hlo'
  rw [h2] at hhi'
  obtain ⟨a, b⟩ := wrap_toInt_mem x hlo' hhi'
  exact IntOp.andi_eq_one.2 ⟨IntOp.cmpi_sge.2 (by rw [h3]; exact a), IntOp.cmpi_sle.2 (by rw [h4]; exact b)⟩

/-- A left fold by "and" from 1 over words that are all 1 stays at 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A reduce by "and", started at 1, of an array whose every word is 1 is 1 at every index of the result. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

end Cert.ClassIds
-- ==== Proof.Operands.lean ====
import proofs.«418527_j30588757082169_3_alg».proof.Proof.Gen.KernelIdeal.Frame
import proofs.«418527_j30588757082169_3_alg».proof.Proof.ClassIds
import Idealize.ShloMosaic.Lib.StableHlo.Run
import Idealize.ShloMosaic.Lib.Pipeline.Value
import Idealize.ShloMosaic.Lib.ValueIdx

/-!
# What the kernel's region is launched on

Before its one region the kernel's @main makes three arrays out of the arguments:

* the inputs, narrowed to bf16 (the identity on extended reals);
* the selected rows of the weight table: for each of the 65536 class ids, wrapped (`starts`), the row of the
  table at that id — but only where the wrapped id passes the test 0 ≤ id' ≤ 999999 (`inTable`); elsewhere the
  row is filled with a fixed word;
* the selected biases, chosen the same way, laid out as a [1 × 65536] row.

When every id lies in [-1000000, 1000000) the test passes everywhere (Proof/ClassIds.lean), the fill is never
used, and the second and third arrays are exactly the gathered rows and the gathered biases.
-/

noncomputable section

namespace Cert.KernelIdeal.Operands

open Cert.KernelIdeal Cert.KernelIdeal.Gen Idealize.ShloMosaic Idealize.ShloMosaic.TcCoe Idealize.SL.Sem Idealize.ShloMosaic.StableHlo

variable {F : FTy → Type} [FloatOps F]

/-- The ids as start indices of a gather: a negative id counts from the end of the table; an [65536 × 1] column. -/
def starts (ids : IVec S65536 32) : IVec S65536x1 32 :=
  broadcastInDim S65536x1 ![0] Facts₀.bcast_S65536_S65536x1_0
    (select (cmpi .slt ids (broadcastInDim S65536 ![] Facts₀.bcast_S_S65536 (constantI S_ 32 0#32)))
      (addi ids (broadcastInDim S65536 ![] Facts₀.bcast_S_S65536 (constantI S_ 32 1000000#32))) ids)

/-- The range test on the wrapped ids: 0 ≤ id' and id' ≤ 999999, one bit per id. -/
def inTable (ids : IVec S65536 32) : IVec S65536 1 :=
  Host.reduce IntOp.andi
    (andi (cmpi .sge (starts ids) (broadcastInDim S65536x1 ![] Facts₀.bcast_S_S65536x1 (constantI S_ 32 0#32)))
      (cmpi .sle (starts ids) (broadcastInDim S65536x1 ![0, 1] Facts₀.bcast_S1x1_S65536x1_0_1 (broadcastInDim S1x1 ![1] Facts₀.bcast_S1_S1x1_1 (constantI S1 32 999999#32)))))
    (constantI S_ 1 1#1) Facts₀.reducesTo_S65536x1_S65536_d1 Facts₀.h_S_

/-- The rows of the weight table at the wrapped ids. -/
def rows (ids : IVec S65536 32) (w : FVec F S1000000x128 .f32) : FVec F S65536x128 .f32 :=
  Host.gather gather_S1000000x128_S65536x1_S65536x128_1_0_n_n_0_1_1128 w (starts ids)

/-- The entries of the bias vector at the wrapped ids. -/
def biases (ids : IVec S65536 32) (b : FVec F S1000000 .f32) : FVec F S65536 .f32 :=
  Host.gather gather_S1000000_S65536x1_S65536_n_0_n_n_0_1_1 b (starts ids)

/-! ## The range test passes on ids in range -/

/-- Entry (s, 0) of the start-index column is the wrapped id number s. -/
theorem starts_apply (ids : IVec S65536 32) (i : S65536x1.Idx) :
    starts ids i = Cert.ClassIds.wrap (ids (ValueIdx.ix1 (i 0))) := by
  unfold starts
  refine (broadcastInDim_apply _ Facts₀.bcast_S65536_S65536x1_0 _ i (ValueIdx.ix1 (i 0)) (fun a => match a with
    | ⟨0, _⟩ => by show (i 0).val = if (65536 : Nat) = 1 then 0 else (i 0).val; rw [if_neg (by decide)])).trans ?_
  rfl

/-- If every id lies in [-1000000, 1000000), every wrapped id passes the range test. -/
theorem inTable_ones (ids : IVec S65536 32)
    (h : ∀ k : S65536.Idx, IntOp.cmpi .sge (ids k) 4293967296#32 = 1#1 ∧ IntOp.cmpi .slt (ids k) 1000000#32 = 1#1) :
    inTable ids = fun _ => 1#1 := by
  funext j
  unfold inTable
  refine Cert.ClassIds.reduce_andi_ones _ _ _ _ (fun i => ?_) (fun _ => rfl) j
  show IntOp.andi (IntOp.cmpi .sge (starts ids i) 0#32) (IntOp.cmpi .sle (starts ids i) 999999#32) = 1#1
  rw [starts_apply]
  exact Cert.ClassIds.wrap_in_table _ (h _).1 (h _).2

/-- A choice between two arrays by a mask that is set everywhere is the first array. -/
theorem select_ones {s : Shape} {α : Type} (c : IVec s 1) (hc : c = fun _ => 1#1) (a b : s.Idx → α) : select c a b = a := by
  subst hc
  funext i
  exact ValueIdx.select_one _ _

/-- A mask set everywhere, broadcast along new axes, is set everywhere. -/
theorem broadcast_ones {s t : Shape} (dims : Fin s.rank → Fin t.rank) (hb : s.BroadcastsInDim t dims) :
    broadcastInDim t dims hb (fun _ : s.Idx => (1#1 : BitVec 1)) = fun _ => 1#1 := rfl

/-! ## The host operations before the region, read back -/

variable (m : (ℓ : Loc nD τ sig) → Buf (Elt F) ℓ)

set_option maxHeartbeats 1000000 in
/-- The first operand of the region: the inputs narrowed to bf16. -/
theorem V_inputs (c : Dev nD) :
    (V m c main_call0_v2 : S1024x128.Idx → Elt F .bf16)
      = truncf .bf16 (m ((c : Thread nD τ).loc main_arg0) : S1024x128.Idx → Elt F .f32) Facts₀.bitsLt_bf16_f32 := by
  dsimp only [Gen.V, Gen.hostOps0]
  after_results_simp
  simp only [cast_eq]

set_option maxHeartbeats 1000000 in
/-- The second operand: the gathered rows where the range test passes, a fill word elsewhere. -/
theorem V_rows (c : Dev nD) :
    (V m c main_call0_v0 : S65536x128.Idx → Elt F .f32)
      = select (broadcastInDim S65536x128 ![0] Facts₀.bcast_S65536_S65536x128_0 (inTable (m ((c : Thread nD τ).loc main_arg2))))
          (rows (F := F) (m ((c : Thread nD τ).loc main_arg2)) (m ((c : Thread nD τ).loc main_arg3)))
          (broadcastInDim S65536x128 ![] Facts₀.bcast_S_S65536x128 (constant (F := F) S_ .f32 0x7FC00000#32)) := by
  unfold inTable rows starts
  dsimp only [Gen.V, Gen.hostOps0]
  after_results_simp
  simp only [cast_eq]

set_option maxHeartbeats 1000000 in
/-- The third operand: the gathered biases where the range test passes, a fill word elsewhere, as a [1 × 65536] row. -/
theorem V_biases (c : Dev nD) :
    (V m c main_call0_v3 : S1x65536.Idx → Elt F .f32)
      = shapeCast S1x65536 (select (inTable (m ((c : Thread nD τ).loc main_arg2)))
          (biases (F := F) (m ((c : Thread nD τ).loc main_arg2)) (m ((c : Thread nD τ).loc main_arg4)))
          (broadcastInDim S65536 ![] Facts₀.bcast_S_S65536 (constant (F := F) S_ .f32 0x7FC00000#32))) Facts₀.shapeCasts_S65536_S1x65536 := by
  unfold inTable biases starts
  dsimp only [Gen.V, Gen.hostOps0]
  after_results_simp
  simp only [cast_eq]
  rfl

/-- With every id in range the second operand is the gathered rows … -/
theorem V_rows_of_range (c : Dev nD)
    (h : ∀ k : S65536.Idx, IntOp.cmpi .sge (m ((c : Thread nD τ).loc main_arg2) k) 4293967296#32 = 1#1
      ∧ IntOp.cmpi .slt (m ((c : Thread nD τ).loc main_arg2) k) 1000000#32 = 1#1) :
    (V m c main_call0_v0 : S65536x128.Idx → Elt F .f32)
      = rows (F := F) (m ((c : Thread nD τ).loc main_arg2)) (m ((c : Thread nD τ).loc main_arg3)) := by
  rw [V_rows, inTable_ones _ h, broadcast_ones]
  exact select_ones _ rfl _ _

/-- … and the third the gathered biases as a row. -/
theorem V_biases_of_range (c : Dev nD)
    (h : ∀ k : S65536.Idx, IntOp.cmpi .sge (m ((c : Thread nD τ).loc main_arg2) k) 4293967296#32 = 1#1
      ∧ IntOp.cmpi .slt (m ((c : Thread nD τ).loc main_arg2) k) 1000000#32 = 1#1) :
    (V m c main_call0_v3 : S1x65536.Idx → Elt F .f32)
      = shapeCast S1x65536 (biases (F := F) (m ((c : Thread nD τ).loc main_arg2)) (m ((c : Thread nD τ).loc main_arg4))) Facts₀.shapeCasts_S65536_S1x65536 := by
  rw [V_biases, inTable_ones _ h]
  exact congrArg (fun v => shapeCast S1x65536 v Facts₀.shapeCasts_S65536_S1x65536) (select_ones _ rfl _ _)

end Cert.KernelIdeal.Operands

end
-- ==== Proof.Spec.lean ====
import Idealize.ShloMosaic.PureOps.Ideal
import Idealize.ShloMosaic.Lib.ValueIdx

/-!
# Sampled logits

Given a batch of 1024 feature vectors x (1024 × 128), 65536 selected rows w of a weight table (65536 × 128) and the
65536 biases β that go with them, the sampled logits are

  logits[b, s] = Σ_{k < 128} x[b, k] · w[s, k] + β[s]        (a 1024 × 65536 array of extended reals).

Both programs of this certificate compute this function of the same three arrays; neither rearranges the sum, so no
law of arithmetic beyond the definition is needed, and no finiteness.
-/

noncomputable section

namespace Cert.Spec

open Idealize.ShloMosaic Idealize.ShloMosaic.ValueIdx

def sampledLogits (x : (⟨2, ![1024, 128]⟩ : Shape).Idx → EReal) (w : (⟨2, ![65536, 128]⟩ : Shape).Idx → EReal)
    (β : (⟨1, ![65536]⟩ : Shape).Idx → EReal) : (⟨2, ![1024, 65536]⟩ : Shape).Idx → EReal :=
  fun i => (∑ k : Fin 128, x (ix2 (⟨(i 0).val, (i 0).isLt⟩ : Fin 1024) k) * w (ix2 (⟨(i 1).val, (i 1).isLt⟩ : Fin 65536) k))
    + β (ix1 (⟨(i 1).val, (i 1).isLt⟩ : Fin 65536))

end Cert.Spec

end
-- ==== Proof.KernelSpec.lean ====
import proofs.«418527_j30588757082169_3_alg».proof.Proof.Logits
import proofs.«418527_j30588757082169_3_alg».proof.Proof.Operands
import proofs.«418527_j30588757082169_3_alg».proof.Proof.Spec

/-!
# The kernel computes the sampled logits of its arguments

After the run the kernel's result is `logits` of the three arrays its region is launched on (Proof/Logits.lean).
With every class id in range those are the inputs (narrowed to bf16: the identity here), the gathered weight rows
and the gathered biases laid out as a row (Proof/Operands.lean). Reading the bias row at (0, s) gives the bias
vector at s, so the result is the specification's function of the arguments.
-/

noncomputable section

namespace Cert.KernelIdeal.Logits

open Cert.KernelIdeal Cert.KernelIdeal.Gen Idealize.ShloMosaic Idealize.ShloMosaic.TcCoe Idealize.SL.Sem Idealize.ShloMosaic.ValueIdx

/-- A vector laid out as a [1 × 65536] row reads, at (0, s), the vector at s. -/
theorem bias_row_at (B : Vec Ideal S65536 .f32) (s : Fin 65536) :
    shapeCast S1x65536 B Facts₀.shapeCasts_S65536_S1x65536 (ix2 (0 : Fin 1) s) = B (ix1 s) :=
  shapeCast_apply B Facts₀.shapeCasts_S65536_S1x65536 (ix2 (0 : Fin 1) s) (ix1 s) (by
    rw [Shape.rowMajor_val_one, Shape.rowMajor_val_two]
    show s.val = 0 * 65536 + s.val
    omega)

/-- `logits` of the narrowed inputs, any rows and a bias vector laid out as a row is the specification. -/
theorem logits_eq_spec (x : FVec Ideal S1024x128 .f32) (W : Vec Ideal S65536x128 .f32) (B : Vec Ideal S65536 .f32) :
    logits (truncf .bf16 x Facts₀.bitsLt_bf16_f32 : FVec Ideal S1024x128 .bf16) W (shapeCast S1x65536 B Facts₀.shapeCasts_S65536_S1x65536)
      = Cert.Spec.sampledLogits x W B := by
  funext i
  unfold logits Cert.Spec.sampledLogits
  rw [bias_row_at]
  rfl

variable (m : (ℓ : Loc nD τ sig) → Buf (Elt Ideal) ℓ) (ρ : Dev nD → PrngReg)

/-- With every class id in [-1000000, 1000000) the kernel's result is the sampled logits of the inputs, the rows of
    the weight table at the wrapped ids and the biases at the wrapped ids. -/
theorem result_is_spec (c : Dev nD)
    (h : ∀ k : S65536.Idx, IntOp.cmpi .sge (m ((c : Thread nD τ).loc main_arg2) k) 4293967296#32 = 1#1
      ∧ IntOp.cmpi .slt (m ((c : Thread nD τ).loc main_arg2) k) 1000000#32 = 1#1) :
    logits (xarr m c) (warr m c) (barr m c)
      = Cert.Spec.sampledLogits (m ((c : Thread nD τ).loc main_arg0))
          (Operands.rows (F := Ideal) (m ((c : Thread nD τ).loc main_arg2)) (m ((c : Thread nD τ).loc main_arg3)))
          (Operands.biases (F := Ideal) (m ((c : Thread nD τ).loc main_arg2)) (m ((c : Thread nD τ).loc main_arg4))) := by
  show logits (V m c main_call0_v2) (V m c main_call0_v0) (V m c main_call0_v3) = _
  rw [Operands.V_inputs m c, Operands.V_rows_of_range m c h, Operands.V_biases_of_range m c h]
  exact logits_eq_spec _ _ _

end Cert.KernelIdeal.Logits

end
-- ==== Proof.RefLogits.lean ====
import proofs.«418527_j30588757082169_3_alg».proof.Proof.Gen.ReferenceIdeal.Read
import proofs.«418527_j30588757082169_3_alg».proof.Proof.Spec

/-!
# The reference computes the sampled logits

The reference gathers the rows and the biases at the wrapped class ids, takes the matrix product of the inputs with
the gathered rows contracting the feature axis of both, and adds the gathered biases along every row. Read at an
index (b, s) that is Σ_k x[b, k] · rows[s, k] + biases[s]: the specification, term for term.
-/

noncomputable section

namespace Cert.ReferenceIdeal.RefValue

open Cert.ReferenceIdeal Cert.ReferenceIdeal.Read Idealize.ShloMosaic Idealize.ShloMosaic.ValueIdx

theorem result_eq (x0 : (⟨S1024x128, .f32⟩ : BufTy).Contents (Elt Ideal)) (x2 : (⟨S65536, .i32⟩ : BufTy).Contents (Elt Ideal))
    (x3 : (⟨S1000000x128, .f32⟩ : BufTy).Contents (Elt Ideal)) (x4 : (⟨S1000000, .f32⟩ : BufTy).Contents (Elt Ideal)) :
    val_main_v17 (F := Ideal) x0 x2 x3 x4
      = Cert.Spec.sampledLogits x0 (val_main_v6 (F := Ideal) x2 x3) (val_main_v13 (F := Ideal) x2 x4) := by
  funext i
  have el : ∀ k : Fin 128, lidx_main_v14 i k = ix2 (⟨(i 0).val, (i 0).isLt⟩ : Fin 1024) k := fun k =>
    funext fun a => Fin.ext (by match a with | ⟨0, _⟩ => rfl | ⟨1, _⟩ => rfl)
  have er : ∀ k : Fin 128, ridx_main_v14 i k = ix2 (⟨(i 1).val, (i 1).isLt⟩ : Fin 65536) k := fun k =>
    funext fun a => Fin.ext (by match a with | ⟨0, _⟩ => rfl | ⟨1, _⟩ => rfl)
  have eb : idx_main_v15 (idx_main_v16 i) = ix1 (⟨(i 1).val, (i 1).isLt⟩ : Fin 65536) :=
    funext fun a => Fin.ext (by match a with | ⟨0, _⟩ => rfl)
  rw [val_main_v17_apply, val_main_v14_apply, val_main_v16_apply, val_main_v15_apply, eb]
  simp only [el, er]
  rfl

end Cert.ReferenceIdeal.RefValue

end
-- ==== Proof.lean ====
/-
  Sampled logits against a table of 1000000 classes: the kernel and its reference compute one function.

  Inputs: features x (1024 × 128), 65536 class ids, a weight table (1000000 × 128) and a bias vector (1000000).
  Both programs wrap a negative id by adding 1000000 and then select, for each id, a row of the table and an entry
  of the bias vector; the result is

      logits[b, s] = Σ_{k < 128} x[b, k] · table[id'_s, k] + bias[id'_s].

  The reference does this with one matrix product over the whole arrays. The kernel narrows the features and the
  selected rows to bf16 (the identity on extended reals), and computes the same sums in 32 column blocks of 2048
  samples each, one per grid point; each block's entry is the same sum, in the same order, so no law of arithmetic
  and no finiteness is needed: the bridge is an identity of index bookkeeping.

  The one place the programs differ is the selection itself. The kernel tests each wrapped id against
  [0, 999999] and writes a fill word where the test fails; the reference selects with the id clamped. For ids in
  [-1000000, 1000000) — the precondition's last conjunct — the wrapped id is a row of the table, the test always
  passes (Proof/ClassIds.lean) and the fill is never used (Proof/Operands.lean).

  Modules: Proof/Spec.lean (the function), Proof/ClassIds.lean and Proof/IdRange.lean (the ids), Proof/Operands.lean
  (what the region is launched on), Proof/Payload.lean (one block entry), Proof/Logits.lean (blocks to the array),
  Proof/KernelSpec.lean (the kernel's result is the function), Proof/RefLogits.lean (so is the reference's).
-/
import proofs.«418527_j30588757082169_3_alg».proof.Defs
import proofs.«418527_j30588757082169_3_alg».proof.Proof.Gen.Kernel
import proofs.«418527_j30588757082169_3_alg».proof.Proof.Gen.Kernel.Skeleton
import proofs.«418527_j30588757082169_3_alg».proof.Proof.Gen.Kernel.Launch
import proofs.«418527_j30588757082169_3_alg».proof.Proof.Gen.Kernel.Points
import proofs.«418527_j30588757082169_3_alg».proof.Proof.Gen.Kernel.Frame
import proofs.«418527_j30588757082169_3_alg».proof.Proof.Gen.KernelIdeal
import proofs.«418527_j30588757082169_3_alg».proof.Proof.Gen.KernelIdeal.Skeleton
import proofs.«418527_j30588757082169_3_alg».proof.Proof.Gen.KernelIdeal.Launch
import proofs.«418527_j30588757082169_3_alg».proof.Proof.Gen.KernelIdeal.Points
import proofs.«418527_j30588757082169_3_alg».proof.Proof.Gen.KernelIdeal.Frame
import proofs.«418527_j30588757082169_3_alg».proof.Proof.Gen.ReferenceIdeal
import proofs.«418527_j30588757082169_3_alg».proof.Proof.Gen.Pre_finite_inputs
import proofs.«418527_j30588757082169_3_alg».proof.Proof.Gen.KernelIdeal.Value
import proofs.«418527_j30588757082169_3_alg».proof.Proof.Gen.ReferenceIdeal.Run
import proofs.«418527_j30588757082169_3_alg».proof.Proof.Gen.ReferenceIdeal.Read
import proofs.«418527_j30588757082169_3_alg».proof.Proof.IdRange
import proofs.«418527_j30588757082169_3_alg».proof.Proof.KernelSpec
import proofs.«418527_j30588757082169_3_alg».proof.Proof.RefLogits
import Idealize.ShloMosaic.Adequacy
import Idealize.ShloMosaic.Init

noncomputable section

namespace Cert.Proof

open Idealize.ShloMosaic Idealize.ShloMosaic.TcCoe Idealize.SL.Sem

/-- The two programs select the same rows: the same gather of the weight table at the same wrapped ids. -/
theorem rows_eq (x2 : (⟨Cert.ReferenceIdeal.S65536, .i32⟩ : BufTy).Contents (Elt Ideal))
    (x3 : (⟨Cert.ReferenceIdeal.S1000000x128, .f32⟩ : BufTy).Contents (Elt Ideal)) :
    Cert.ReferenceIdeal.Read.val_main_v6 (F := Ideal) x2 x3 = Cert.KernelIdeal.Operands.rows (F := Ideal) x2 x3 := rfl

/-- … and the same biases. -/
theorem biases_eq (x2 : (⟨Cert.ReferenceIdeal.S65536, .i32⟩ : BufTy).Contents (Elt Ideal))
    (x4 : (⟨Cert.ReferenceIdeal.S1000000, .f32⟩ : BufTy).Contents (Elt Ideal)) :
    Cert.ReferenceIdeal.Read.val_main_v13 (F := Ideal) x2 x4 = Cert.KernelIdeal.Operands.biases (F := Ideal) x2 x4 := rfl

/-- The kernel as printed runs, faults nowhere and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the sampled logits of the inputs, the rows of
    the table at the wrapped ids and the biases at the wrapped ids. -/
theorem algebraic : Cert.algebraic_KernelIdeal_ReferenceIdeal := by
  intro m ρ m' ρ' hpre hagree
  have hrange : ∀ (c : Dev Cert.KernelIdeal.nD) (k : Cert.KernelIdeal.S65536.Idx),
      IntOp.cmpi .sge (m ((c : Thread Cert.KernelIdeal.nD Cert.KernelIdeal.τ).loc Cert.KernelIdeal.main_arg2) k) 4293967296#32 = 1#1
      ∧ IntOp.cmpi .slt (m ((c : Thread Cert.KernelIdeal.nD Cert.KernelIdeal.τ).loc Cert.KernelIdeal.main_arg2) k) 1000000#32 = 1#1 :=
    fun c k => Cert.Pre_finite_inputs.id_in_range _ _ _ _ _ (hpre c) k
  refine ⟨fun c => Cert.Spec.sampledLogits (m ((c : Thread Cert.KernelIdeal.nD Cert.KernelIdeal.τ).loc Cert.KernelIdeal.main_arg0))
      (Cert.KernelIdeal.Operands.rows (F := Ideal) (m ((c : Thread Cert.KernelIdeal.nD Cert.KernelIdeal.τ).loc Cert.KernelIdeal.main_arg2))
        (m ((c : Thread Cert.KernelIdeal.nD Cert.KernelIdeal.τ).loc Cert.KernelIdeal.main_arg3)))
      (Cert.KernelIdeal.Operands.biases (F := Ideal) (m ((c : Thread Cert.KernelIdeal.nD Cert.KernelIdeal.τ).loc Cert.KernelIdeal.main_arg2))
        (m ((c : Thread Cert.KernelIdeal.nD Cert.KernelIdeal.τ).loc Cert.KernelIdeal.main_arg4))), ?_, ?_⟩
  · exact (θ_run Cert.KernelIdeal.defs _ _).mono
      (fun r h c => ⟨(h c).1.trans (Cert.KernelIdeal.Logits.result_is_spec m c (hrange c)), (h c).2⟩)
      (Cert.KernelIdeal.Logits.run m ρ)
  · refine (θ_run Cert.ReferenceIdeal.defs _ _).mono (fun _ h c => ⟨(h c).1.trans ?_, (h c).2⟩)
      (Cert.ReferenceIdeal.Value.run (F := Ideal) m' ρ')
    obtain ⟨a0, -, a2, a3, a4⟩ := hagree c
    rw [a0, a2, a3, a4, Cert.ReferenceIdeal.Read.val_main_v17_eq, Cert.ReferenceIdeal.RefValue.result_eq, rows_eq, biases_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
